-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3072 : Shape := ⟨2, ![4096, 3072]⟩
abbrev S12288x96x32 : Shape := ⟨3, ![12288, 96, 32]⟩
abbrev S12288x96x1 : Shape := ⟨3, ![12288, 96, 1]⟩
abbrev S12288 : Shape := ⟨1, ![12288]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S12288x96x1 : S_.BroadcastsInDim S12288x96x1 (![] : Fin 0 → Fin S12288x96x1.rank)
  reducesTo_S12288x96x1_S_d0_1_2 : S12288x96x1.ReducesTo [0, 1, 2] S_
  bcast_S_S12288 : S_.BroadcastsInDim S12288 (![] : Fin 0 → Fin S12288.rank)
  reducesTo_S12288_S_d0 : S12288.ReducesTo [0] S_

variable [Facts]

def fn {F : FTy → Type} [FloatOps F] (main_arg0 : FVec F S4096x3072 .f32) (main_arg1 : IVec S12288x96x32 32) (main_arg2 : FVec F S12288x96x1 .f32) (main_arg3 : FVec F S12288 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S12288x96x1 .f32 := Host.absf main_arg2
  let main_cst_0 : FVec F S_ .f32 := constant S_ .f32 0x7F800000#32
  let main_v5 : FVec F S12288x96x1 .f32 := broadcastInDim S12288x96x1 ![] bcast_S_S12288x96x1 main_cst_0
  let main_v6 : IVec S12288x96x1 1 := cmpf .olt main_v4 main_v5
  let main_c_1 : IVec S_ 1 := constantI S_ 1 1#1
  let main_v7 : IVec S_ 1 := (fun x v => Host.reduce IntOp.andi x v reducesTo_S12288x96x1_S_d0_1_2 h_S_) main_v6 main_c_1
  let main_v8 : IVec S_ 1 := andi main_v3 main_v7
  let main_v9 : FVec F S12288 .f32 := Host.absf main_arg3
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  main_v13
-- ==== Kernel.lean ====
abbrev S4096x3072 : Shape := ⟨2, ![4096, 3072]⟩
abbrev S12288x96x32 : Shape := ⟨3, ![12288, 96, 32]⟩
abbrev S12288x96x1 : Shape := ⟨3, ![12288, 96, 1]⟩
abbrev S12288 : Shape := ⟨1, ![12288]⟩
abbrev S12288x3072 : Shape := ⟨2, ![12288, 3072]⟩
abbrev S1x12288 : Shape := ⟨2, ![1, 12288]⟩
abbrev S4096x12288 : Shape := ⟨2, ![4096, 12288]⟩
abbrev S2048x3072 : Shape := ⟨2, ![2048, 3072]⟩
abbrev S256x3072 : Shape := ⟨2, ![256, 3072]⟩
abbrev S1x256 : Shape := ⟨2, ![1, 256]⟩
abbrev S2048x256 : Shape := ⟨2, ![2048, 256]⟩

abbrev nBuf : Space → Nat
  | .hbm => 12
  | .vmem => 8
  | .smem => 0
  | _ => 0

abbrev bufTy : (tb : Table) → Fin (tcTables nBuf tb) → BufTy
  | .hbm, ⟨0, _⟩ => ⟨S4096x3072, .f32⟩
  | .hbm, ⟨1, _⟩ => ⟨S12288x96x32, .i32⟩
  | .hbm, ⟨2, _⟩ => ⟨S12288x96x1, .f32⟩
  | .hbm, ⟨3, _⟩ => ⟨S12288, .f32⟩
  | .hbm, ⟨4, _⟩ => ⟨S12288x96x32, .f32⟩
  | .hbm, ⟨5, _⟩ => ⟨S12288x96x32, .f32⟩
  | .hbm, ⟨6, _⟩ => ⟨S12288x96x32, .f32⟩
  | .hbm, ⟨7, _⟩ => ⟨S12288x3072, .f32⟩
  | .hbm, ⟨8, _⟩ => ⟨S12288x3072, .bf16⟩
  | .hbm, ⟨9, _⟩ => ⟨S4096x3072, .bf16⟩
  | .hbm, ⟨10, _⟩ => ⟨S1x12288, .f32⟩
  | .hbm, ⟨11, _⟩ => ⟨S4096x12288, .f32⟩
  | .local _ .vmem, ⟨0, _⟩ => ⟨S2048x3072, .bf16⟩
  | .local _ .vmem, ⟨1, _⟩ => ⟨S2048x3072, .bf16⟩
  | .local _ .vmem, ⟨2, _⟩ => ⟨S256x3072, .bf16⟩
  | .local _ .vmem, ⟨3, _⟩ => ⟨S256x3072, .bf16⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S12288x96x1_S12288x96x32_0_1_2 : S12288x96x1.BroadcastsInDim S12288x96x32 (![0, 1, 2] : Fin 3 → Fin S12288x96x32.rank)
  shapeCasts_S12288x96x32_S12288x3072 : S12288x96x32.ShapeCasts S12288x3072
  bitsLt_bf16_f32 : FTy.bits .bf16 < FTy.bits .f32
  shapeCasts_S12288_S1x12288 : S12288.ShapeCasts S1x12288
  inb_S2048x3072_S2048x3072_0_0 : ∀ a, (![0, 0] : Fin 2 → Nat) a + S2048x3072.size a ≤ S2048x3072.size a
  h_S2048x3072 : 0 < S2048x3072.numel
  shapeCasts_S2048x3072_S2048x3072 : S2048x3072.ShapeCasts S2048x3072
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x3072_S256x3072_S2048x256_1_1_0_0_n_n_wf : DotDims.WF S2048x3072 S256x3072 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3072.size a ≤ S4096x3072.size a
  hwx0_0 : ∀ i : grid0.Coords, EltTy.bits .bf16 = 32 ∨ (Rect.block (s := S4096x3072) S2048x3072.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3072.size a ≤ S12288x3072.size a
  hwx0_1 : ∀ i : grid0.Coords, EltTy.bits .bf16 = 32 ∨ (Rect.block (s := S12288x3072) S256x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x12288.size a
  hwx0_2 : ∀ i : grid0.Coords, EltTy.bits .f32 = 32 ∨ (Rect.block (s := S1x12288) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S4096x12288.size a
  hwx0_3 : ∀ i : grid0.Coords, EltTy.bits .f32 = 32 ∨ (Rect.block (s := S4096x12288) S2048x256.size (cc0_transform_3 i) (hinb0_3 i)).WholeWords (EltTy.packing .f32)

variable [Facts₀]

def dot_S2048x3072_S256x3072_S2048x256_1_1_0_0_n_n : DotDims S2048x3072 S256x3072 S2048x256 where
  lhsContracting := [1]
  rhsContracting := [1]
  lhsNonContracting := [0]
  rhsNonContracting := [0]
  lhsBatch := []
  rhsBatch := []
  wf := dot_S2048x3072_S256x3072_S2048x256_1_1_0_0_n_n_wf

abbrev win0_0 : Pipeline.Window sig grid0 :=
  Pipeline.Window.ofSpec (Memref.whole main_v5) S2048x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x3072 : Shape := ⟨2, ![4096, 3072]⟩
abbrev S12288x96x32 : Shape := ⟨3, ![12288, 96, 32]⟩
abbrev S12288x96x1 : Shape := ⟨3, ![12288, 96, 1]⟩
abbrev S12288 : Shape := ⟨1, ![12288]⟩
abbrev S12288x3072 : Shape := ⟨2, ![12288, 3072]⟩
abbrev S4096x12288 : Shape := ⟨2, ![4096, 12288]⟩
abbrev S1x12288 : Shape := ⟨2, ![1, 12288]⟩

abbrev nBuf : Space → Nat
  | .hbm => 12
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S12288x96x32, .i32⟩
  | .hbm, ⟨2, _⟩ => ⟨S12288x96x1, .f32⟩
  | .hbm, ⟨3, _⟩ => ⟨S12288, .f32⟩
  | .hbm, ⟨4, _⟩ => ⟨S12288x96x32, .f32⟩
  | .hbm, ⟨5, _⟩ => ⟨S12288x96x32, .f32⟩
  | .hbm, ⟨6, _⟩ => ⟨S12288x96x32, .f32⟩
  | .hbm, ⟨7, _⟩ => ⟨S12288x3072, .f32⟩
  | .hbm, ⟨8, _⟩ => ⟨S4096x12288, .f32⟩
  | .hbm, ⟨9, _⟩ => ⟨S1x12288, .f32⟩
  | .hbm, ⟨10, _⟩ => ⟨S4096x12288, .f32⟩
  | .hbm, ⟨11, _⟩ => ⟨S4096x12288, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S12288x96x1_S12288x96x32_0_1_2 : S12288x96x1.BroadcastsInDim S12288x96x32 (![0, 1, 2] : Fin 3 → Fin S12288x96x32.rank)
  shapeCasts_S12288x96x32_S12288x3072 : S12288x96x32.ShapeCasts S12288x3072
  bcast_S12288_S1x12288_1 : S12288.BroadcastsInDim S1x12288 (![1] : Fin 1 → Fin S1x12288.rank)
  bcast_S1x12288_S4096x12288_0_1 : S1x12288.BroadcastsInDim S4096x12288 (![0, 1] : Fin 2 → Fin S4096x12288.rank)
  dot_S4096x3072_S12288x3072_S4096x12288_1_1_0_0_n_n_wf : DotDims.WF S4096x3072 S12288x3072 S4096x12288 [1] [1] [0] [0] [] []

variable [Facts₀]

def dot_S4096x3072_S12288x3072_S4096x12288_1_1_0_0_n_n : DotDims S4096x3072 S12288x3072 S4096x12288 where
  lhsContracting := [1]
  rhsContracting := [1]
  lhsNonContracting := [0]
  rhsNonContracting := [0]
  lhsBatch := []
  rhsBatch := []
  wf := dot_S4096x3072_S12288x3072_S4096x12288_1_1_0_0_n_n_wf

class Facts : Prop extends Facts₀ where

variable [Facts]
-- ==== Proof.Body.lean ====
/-
  One grid point's arithmetic, read at an index. The body loads a block `a : [2048, 3072]` of activations, a block
  `w : [256, 3072]` of weights and a block `b : [1, 256]` of the bias, and stores

      (a · wᵀ) + b      over [2048, 256],

  the product contracting the SECOND axis of both operands into a zero accumulator, the bias row repeated down the
  2048 rows. At the extended reals entry `(p, q)` of the stored block is therefore

      (∑ k < 3072, a (p, k) · w (q, k)) + b (0, q):

  a product into the zero accumulator is the plain sum (0 + s = s holds for every extended real), the sum over the
  one contracted axis is the sum over its coordinate `k`, and the two shape casts are between equal shapes.
-/
import proofs.«425378_j26774826123822_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The block product's operand indices, axis by axis

For output entry `i = (p, q)` and contraction index `κ`: the activations are read at `(p, κ)` and the weights at
`(q, κ)` — axis 0 of each operand is its free axis, axis 1 the contracted one. -/

theorem act_axis0 (i : S2048x256.Idx) (κ : dot_S2048x3072_S256x3072_S2048x256_1_1_0_0_n_n.contr.Idx) :
    (dot_S2048x3072_S256x3072_S2048x256_1_1_0_0_n_n.lhsIdx i κ 0).val = (i 0).val := by
  unfold DotDims.lhsIdx
  rw [dif_neg (show ¬(0 : Fin S2048x3072.rank) ∈ dot_S2048x3072_S256x3072_S2048x256_1_1_0_0_n_n.lhsBatch by decide), dif_pos (show (0 : Fin S2048x3072.rank) ∈ dot_S2048x3072_S256x3072_S2048x256_1_1_0_0_n_n.lhsNonContracting by decide)]
  rfl
theorem act_axis1 (i : S2048x256.Idx) (κ : dot_S2048x3072_S256x3072_S2048x256_1_1_0_0_n_n.contr.Idx) :
    (dot_S2048x3072_S256x3072_S2048x256_1_1_0_0_n_n.lhsIdx i κ 1).val = (κ ⟨0, by decide⟩).val :=
  dot_S2048x3072_S256x3072_S2048x256_1_1_0_0_n_n.lhsIdx_val_of_single rfl i κ
theorem wgt_axis0 (i : S2048x256.Idx) (κ : dot_S2048x3072_S256x3072_S2048x256_1_1_0_0_n_n.contr.Idx) :
    (dot_S2048x3072_S256x3072_S2048x256_1_1_0_0_n_n.rhsIdx i κ 0).val = (i 1).val := by
  unfold DotDims.rhsIdx
  rw [dif_neg (show ¬(0 : Fin S256x3072.rank) ∈ dot_S2048x3072_S256x3072_S2048x256_1_1_0_0_n_n.rhsBatch by decide), dif_pos (show (0 : Fin S256x3072.rank) ∈ dot_S2048x3072_S256x3072_S2048x256_1_1_0_0_n_n.rhsNonContracting by decide)]
  rfl
theorem wgt_axis1 (i : S2048x256.Idx) (κ : dot_S2048x3072_S256x3072_S2048x256_1_1_0_0_n_n.contr.Idx) :
    (dot_S2048x3072_S256x3072_S2048x256_1_1_0_0_n_n.rhsIdx i κ 1).val = (κ ⟨0, by decide⟩).val :=
  dot_S2048x3072_S256x3072_S2048x256_1_1_0_0_n_n.rhsIdx_val_of_single rfl i κ

/-- The block product into the zero accumulator, at entry `(p, q)`: the sum over the contracted coordinate. -/
theorem product_apply (a : FVec Ideal S2048x3072 .bf16) (w : FVec Ideal S256x3072 .bf16) (p : Fin 2048) (q : Fin 256) :
    matmul dot_S2048x3072_S256x3072_S2048x256_1_1_0_0_n_n none a w (constant S2048x256 .f32 0x00000000#32) (ix2 p q)
      = ∑ k : Fin 3072, a (ix2 p k) * w (ix2 q k) := by
  simp only [matmul]
  rw [Ideal.matmul_constant_zero_apply, ← Equiv.sum_comp (contrEquiv1 dot_S2048x3072_S256x3072_S2048x256_1_1_0_0_n_n 3072 rfl rfl).symm]
  refine Finset.sum_congr rfl fun k _ => ?_
  have hk := contrEquiv1_symm_val dot_S2048x3072_S256x3072_S2048x256_1_1_0_0_n_n 3072 rfl rfl k
  have ea : dot_S2048x3072_S256x3072_S2048x256_1_1_0_0_n_n.lhsIdx (ix2 p q) ((contrEquiv1 dot_S2048x3072_S256x3072_S2048x256_1_1_0_0_n_n 3072 rfl rfl).symm k) = ix2 p k := funext fun d => Fin.ext (by
    match d with
    | ⟨0, _⟩ => exact act_axis0 _ _
    | ⟨1, _⟩ => exact (act_axis1 _ _).trans hk)
  have ew : dot_S2048x3072_S256x3072_S2048x256_1_1_0_0_n_n.rhsIdx (ix2 p q) ((contrEquiv1 dot_S2048x3072_S256x3072_S2048x256_1_1_0_0_n_n 3072 rfl rfl).symm k) = ix2 q k := funext fun d => Fin.ext (by
    match d with
    | ⟨0, _⟩ => exact wgt_axis0 _ _
    | ⟨1, _⟩ => exact (wgt_axis1 _ _).trans hk)
  rw [ea, ew]

/-- The bias row repeated down the rows: entry `(p, q)` of the repeated block is entry `(0, q)` of the row. -/
theorem bias_rows_apply (b : FVec Ideal S1x256 .f32) (p : Fin 2048) (q : Fin 256) :
    broadcastTo S2048x256 b broadcasts_S1x256_S2048x256 (ix2 p q) = b (ix2 0 q) :=
  broadcastTo_apply b broadcasts_S1x256_S2048x256 (ix2 p q) (ix2 0 q) (fun d => match d with
    | ⟨0, _⟩ => by show 0 = if (1 : Nat) = 1 then 0 else _; rw [if_pos rfl]
    | ⟨1, _⟩ => by show q.val = if (256 : Nat) = 1 then 0 else q.val; rw [if_neg (by decide)])

/-- WHAT THE BODY STORES, at entry `(p, q)`: the row of activations against the row of weights, plus the bias. -/
theorem stored_apply (a : Vec Ideal S2048x3072 .bf16) (w : Vec Ideal S256x3072 .bf16) (b : Vec Ideal S1x256 .f32) (p : Fin 2048) (q : Fin 256) :
    k0_pay1 (F := Ideal) a w b (ix2 p q) = (∑ k : Fin 3072, a (ix2 p k) * w (ix2 q k)) + b (ix2 0 q) := by
  unfold k0_pay1
  rw [addf_apply, shapeCast_self, shapeCast_self, shapeCast_self, product_apply, bias_rows_apply]

end Cert.KernelIdeal.Body

end
-- ==== Proof.Linear.lean ====
/-
  The linear layer both programs compute, as ONE function of whole arrays over the extended reals:

      linear x W b (t, o) = (∑ k < 3072, x (t, k) · W (o, k)) + b o

  for activations `x : [4096, 3072]`, a weight matrix `W : [12288, 3072]` contracted along its SECOND axis (so the
  product is `x · Wᵀ`), and a bias `b : [12288]` added to every row. The weight matrix is a parameter here: how it is
  dequantized from integer blocks and per-block scales is the same term on both sides and is never opened.
  No law of the extended reals beyond reading a sum index by index is needed, so no finiteness either.
-/
import Idealize.ShloMosaic.PureOps.Ideal
import Idealize.ShloMosaic.Lib.ValueIdx

noncomputable section

open scoped BigOperators

namespace Cert.DequantLinear

open Idealize.ShloMosaic Idealize.ShloMosaic.ValueIdx

/-- `x · Wᵀ + b` on the extended reals: entry `(t, o)` is the sum over the 3072 input features `k` of
    `x (t, k) · W (o, k)`, plus the bias of output feature `o`. -/
def linear (x : FVec Ideal (⟨2, ![4096, 3072]⟩ : Shape) .f32) (W : FVec Ideal (⟨2, ![12288, 3072]⟩ : Shape) .f32)
    (b : FVec Ideal (⟨1, ![12288]⟩ : Shape) .f32) : FVec Ideal (⟨2, ![4096, 12288]⟩ : Shape) .f32 :=
  fun i => (∑ k : Fin 3072, x (ix2 (i 0) k) * W (ix2 (i 1) k)) + b (ix1 (i 1))

/-- The weight matrix both programs build before the product: block-quantized weights `q : [12288, 96, 32]` (one
    integer per weight, 96 blocks of 32 along the input features) times one scale per block `s : [12288, 96, 1]`,
    laid out row-major as `[12288, 3072]`; entry `(o, 32·g + r)` is `float (q (o, g, r)) · s (o, g, 0)`. The two shape
    facts are side conditions of the layout operations (any two proofs of them give the same matrix). -/
def dequant (hb : (⟨3, ![12288, 96, 1]⟩ : Shape).BroadcastsInDim (⟨3, ![12288, 96, 32]⟩ : Shape) (![0, 1, 2] : Fin 3 → Fin (⟨3, ![12288, 96, 32]⟩ : Shape).rank))
    (hc : (⟨3, ![12288, 96, 32]⟩ : Shape).ShapeCasts (⟨2, ![12288, 3072]⟩ : Shape))
    (q : IVec (⟨3, ![12288, 96, 32]⟩ : Shape) 32) (s : FVec Ideal (⟨3, ![12288, 96, 1]⟩ : Shape) .f32) :
    FVec Ideal (⟨2, ![12288, 3072]⟩ : Shape) .f32 :=
  shapeCast (⟨2, ![12288, 3072]⟩ : Shape) (mulf (sitofp .f32 q) (broadcastInDim (⟨3, ![12288, 96, 32]⟩ : Shape) ![0, 1, 2] hb s)) hc

/-- The layer read at explicit coordinates. -/
theorem linear_apply (x : FVec Ideal (⟨2, ![4096, 3072]⟩ : Shape) .f32) (W : FVec Ideal (⟨2, ![12288, 3072]⟩ : Shape) .f32)
    (b : FVec Ideal (⟨1, ![12288]⟩ : Shape) .f32) (t : Fin 4096) (o : Fin 12288) :
    linear x W b (ix2 t o) = (∑ k : Fin 3072, x (ix2 t k) * W (ix2 o k)) + b (ix1 o) := rfl

end Cert.DequantLinear

end
-- ==== Proof.KernelLinear.lean ====
/-
  The kernel computes the layer, block by block. Before the region @main makes the dequantized weight matrix, narrows
  it and the activations to bf16 (the identity on extended reals) and makes the bias a row `[1, 12288]`. The grid has
  2 × 48 points; at point `(mi, j)` the body reads rows `2048·mi …` of the activations, rows `256·j …` of the weights
  and columns `256·j …` of the bias row, and writes block `(mi, j)` of the result. So entry `(p, q)` of that block is

      (∑ k, acts (2048·mi + p, k) · weights (256·j + q, k)) + bias (256·j + q),

  which is entry `(2048·mi + p, 256·j + q)` of `linear acts weights bias`. The 96 blocks tile the `[4096, 12288]`
  result (row `r` is in row block `r / 2048`, column `o` in column block `o / 256`), so after the run the result array
  IS the layer of the arguments.
-/
import proofs.«425378_j26774826123822_3_alg».proof.Proof.Gen.KernelIdeal.Value
import proofs.«425378_j26774826123822_3_alg».proof.Proof.Body
import proofs.«425378_j26774826123822_3_alg».proof.Proof.Linear
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.LinearValue

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.DequantLinear
open Idealize.ShloMosaic.Pipeline (Dat)

variable (m : (ℓ : Loc nD τ sig) → Buf (Elt Ideal) ℓ) (ρ : Dev nD → PrngReg)

/-! ## The arrays -/

/-- The activations, as launched. -/
abbrev acts (c : Dev nD) : FVec Ideal S4096x3072 .f32 := m ((c : Thread nD τ).loc main_arg0)
/-- The dequantized weight matrix of the launched integer blocks and scales. -/
abbrev weights (c : Dev nD) : FVec Ideal S12288x3072 .f32 :=
  dequant bcast_S12288x96x1_S12288x96x32_0_1_2 shapeCasts_S12288x96x32_S12288x3072 (m ((c : Thread nD τ).loc main_arg1)) (m ((c : Thread nD τ).loc main_arg2))
/-- The bias, as launched. -/
abbrev bias (c : Dev nD) : FVec Ideal S12288 .f32 := m ((c : Thread nD τ).loc main_arg3)
/-- The layer of the launched arguments: what the result array is to hold. -/
def result (c : Dev nD) : FVec Ideal S4096x12288 .f32 := linear (acts m c) (weights m c) (bias m c)

/-! ## What the region finds in the three staged arrays -/

/-- The narrowed activations are the activations. -/
theorem staged_acts (c : Dev nD) : (V m c main_v5 : S4096x3072.Idx → EReal) = acts m c := by
  dsimp only [Gen.V, Gen.hostOps0]; after_results; rfl
/-- The narrowed dequantized weights are the dequantized weights. -/
theorem staged_weights (c : Dev nD) : (V m c main_v4 : S12288x3072.Idx → EReal) = weights m c := by
  dsimp only [Gen.V, Gen.hostOps0]; after_results; rfl
/-- The bias row is the bias reshaped. -/
theorem staged_bias (c : Dev nD) : (V m c main_v6 : S1x12288.Idx → EReal) = shapeCast S1x12288 (bias m c) shapeCasts_S12288_S1x12288 := by
  dsimp only [Gen.V, Gen.hostOps0]; after_results; rfl

/-- Entry `(0, o)` of the bias row is the bias of output feature `o`. -/
theorem bias_row_apply (b : FVec Ideal S12288 .f32) (o : Fin 12288) :
    shapeCast S1x12288 b shapeCasts_S12288_S1x12288 (ix2 0 o) = b (ix1 o) :=
  shapeCast_apply b shapeCasts_S12288_S1x12288 (ix2 0 o) (ix1 o) (by
    rewrite [Shape.rowMajor_val_one, Shape.rowMajor_val_two]
    show o.val = 0 * 12288 + o.val
    omega)

/-! ## Where each window's block sits, decided over the 96 grid points -/

theorem hz : (![0, 0] : Fin 2 → Nat) = fun _ => 0 := funext fun a => by fin_cases a <;> rfl

/-- The activations' block follows the result's row block and spans all features; the weights' block follows the
    result's column block and spans all features; the bias row's block follows the result's column block; and the
    result's block indices range over 2 × 48. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 1
    ∧ win0_3.index t (1 : Fin 2) ≤ 47 :=
  (by decide +kernel : ∀ t : Fin grid0.N, _)

/-- Every one of the 2 × 48 blocks of the result is some point's. -/
theorem idx_onto : ∀ (q0 : Fin 2) (q1 : Fin 48), ∃ t : Fin cfg0.N, win0_3.index t = ![q0.val, q1.val] :=
  (by decide +kernel : ∀ (q0 : Fin 2) (q1 : Fin 48), ∃ t : Fin grid0.N, win0_3.index t = ![q0.val, q1.val])

/-! ## The three input blocks read off the arrays -/

/-- Entry `(p, k)` of the activations' block at point `t` is the activations at row `r`, the block's row offset plus `p`. -/
theorem acts_block (c : Dev nD) (t : Fin cfg0.N) (p : Fin 2048) (k : Fin 3072) (r : Fin 4096)
    (hr : r.val = win0_0.index t (0 : Fin 2) * 2048 + p.val) (h1 : win0_0.index t (1 : Fin 2) = 0) :
    iblk m c 0 t (ix2 p k) = acts m c (ix2 r k) := by
  show V m c main_v5 (((cfg0.win 0).blk t).view.emb (ix2 p k)) = _
  rw [staged_acts]
  refine congrArg (acts m c) (funext fun a => Fin.ext ?_)
  match a with
  | ⟨0, _⟩ => show win0_0.index t (0 : Fin 2) * 2048 + 1 * p.val = r.val; omega
  | ⟨1, _⟩ => show win0_0.index t (1 : Fin 2) * 3072 + 1 * k.val = k.val; omega

/-- Entry `(q, k)` of the weights' block at point `t` is the weights at row `o`, the block's row offset plus `q`. -/
theorem weights_block (c : Dev nD) (t : Fin cfg0.N) (q : Fin 256) (k : Fin 3072) (o : Fin 12288)
    (ho : o.val = win0_1.index t (0 : Fin 2) * 256 + q.val) (h1 : win0_1.index t (1 : Fin 2) = 0) :
    iblk m c 1 t (ix2 q k) = weights m c (ix2 o k) := by
  show V m c main_v4 (((cfg0.win 1).blk t).view.emb (ix2 q k)) = _
  rw [staged_weights]
  refine congrArg (weights m c) (funext fun a => Fin.ext ?_)
  match a with
  | ⟨0, _⟩ => show win0_1.index t (0 : Fin 2) * 256 + 1 * q.val = o.val; omega
  | ⟨1, _⟩ => show win0_1.index t (1 : Fin 2) * 3072 + 1 * k.val = k.val; omega

/-- Entry `(0, q)` of the bias row's block at point `t` is the bias of feature `o`, the block's column offset plus `q`. -/
theorem bias_block (c : Dev nD) (t : Fin cfg0.N) (q : Fin 256) (o : Fin 12288)
    (ho : o.val = win0_2.index t (1 : Fin 2) * 256 + q.val) (h0 : win0_2.index t (0 : Fin 2) = 0) :
    iblk m c 2 t (ix2 0 q) = bias m c (ix1 o) := by
  show V m c main_v6 (((cfg0.win 2).blk t).view.emb (ix2 0 q)) = _
  rw [staged_bias, ← bias_row_apply (bias m c) o]
  refine congrArg (shapeCast S1x12288 (bias m c) shapeCasts_S12288_S1x12288) (funext fun a => Fin.ext ?_)
  match a with
  | ⟨0, _⟩ => show win0_2.index t (0 : Fin 2) * 1 + 1 * 0 = 0; omega
  | ⟨1, _⟩ => show win0_2.index t (1 : Fin 2) * 256 + 1 * q.val = o.val; omega

/-! ## What a point writes back, the cover, the array -/

/-- WHAT POINT `t` WRITES BACK is block `t` of the layer of the launched arguments. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S2048x3072) hz, View.ld_unit_zero (S := S256x3072) hz, View.ld_unit_zero (S := S1x256) hz]
  obtain ⟨e0, e1, e2, e3, e4, e5, e6, e7⟩ := idx_facts t
  refine funext fun (j : S2048x256.Idx) => ?_
  obtain ⟨p, q, rfl⟩ : ∃ (p : Fin 2048) (q : Fin 256), j = ix2 p q := ⟨j 0, j 1, eq_ix2 j⟩
  have hp : p.val < 2048 := p.isLt
  have hq : q.val < 256 := q.isLt
  have hr : win0_3.index t (0 : Fin 2) * 2048 + p.val < 4096 := by omega
  have ho : win0_3.index t (1 : Fin 2) * 256 + q.val < 12288 := by omega
  have hemb : ((cfg0.win 3).blk t).view.emb (ix2 p q)
      = ix2 (⟨win0_3.index t (0 : Fin 2) * 2048 + p.val, hr⟩ : Fin 4096) (⟨win0_3.index t (1 : Fin 2) * 256 + q.val, ho⟩ : Fin 12288) :=
    funext fun a => Fin.ext (by
      match a with
      | ⟨0, _⟩ => show win0_3.index t (0 : Fin 2) * 2048 + 1 * p.val = win0_3.index t (0 : Fin 2) * 2048 + p.val; omega
      | ⟨1, _⟩ => show win0_3.index t (1 : Fin 2) * 256 + 1 * q.val = win0_3.index t (1 : Fin 2) * 256 + q.val; omega)
  show k0_pay1 (F := Ideal) (iblk m c 0 t) (iblk m c 1 t) (iblk m c 2 t) (ix2 p q) = result m c (((cfg0.win 3).blk t).view.emb (ix2 p q))
  rw [hemb]
  unfold result
  rw [linear_apply]
  refine (Body.stored_apply (iblk m c 0 t) (iblk m c 1 t) (iblk m c 2 t) p q).trans ?_
  refine congrArg₂ (· + ·) (Finset.sum_congr rfl fun k _ => ?_) ?_
  · rw [acts_block m c t p k ⟨_, hr⟩ (by show win0_3.index t (0 : Fin 2) * 2048 + p.val = win0_0.index t (0 : Fin 2) * 2048 + p.val; omega) e1,
      weights_block m c t q k ⟨_, ho⟩ (by show win0_3.index t (1 : Fin 2) * 256 + q.val = win0_1.index t (0 : Fin 2) * 256 + q.val; omega) e3]
  · exact bias_block m c t q ⟨_, ho⟩ (by show win0_3.index t (1 : Fin 2) * 256 + q.val = win0_2.index t (1 : Fin 2) * 256 + q.val; omega) e4

/-- An index of the result is in point `t`'s block iff each coordinate is in the block's range on its axis. -/
theorem mem_blk (t : Fin cfg0.N) (i : S4096x12288.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v7).slice (win0_3.rect t)).set ↔ _
  rw [View.set_slice_whole, Rect.mem_set_unit]
  exact Iff.rfl

/-- Every index of the result is in some point's block: row `r` in row block `r / 2048`, column `o` in column block `o / 256`. -/
theorem covered (i : S4096x12288.Idx) : ∃ t : Fin cfg0.N, (cfg0.win 3).flush t = true ∧ i ∈ ((cfg0.win 3).blk t).view.set := by
  have hi0 : (i 0).val < 4096 := (i 0).isLt
  have hi1 : (i 1).val < 12288 := (i 1).isLt
  obtain ⟨t, ht⟩ := idx_onto ⟨(i 0).val / 2048, by omega⟩ ⟨(i 1).val / 256, by omega⟩
  have q0 : win0_3.index t (0 : Fin 2) = (i 0).val / 2048 := congrFun ht 0
  have q1 : win0_3.index t (1 : Fin 2) = (i 1).val / 256 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- THE RESULT ARRAY after the run is the layer of the launched arguments. -/
theorem final (c : Dev nD) : (dats m 0 c).arrAt 3 cfg0.N = result m c :=
  (dats m 0 c).arrAt_eq_of_cover 3 (result m c) (fun t _ => flushed_eq m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.LinearValue

end
-- ==== Proof.RefLinear.lean ====
/-
  The reference computes the layer. Its eight host operations, read one stage at a time: the dequantized weight matrix
  (the first four), the product of the activations with it contracting the second axis of both — at the extended reals
  the sum over the contracted coordinate —, the bias made a row and repeated down the 4096 rows (two broadcasts), and
  their sum. Index by index that is `linear` of the arguments at the dequantized weights.
-/
import proofs.«425378_j26774826123822_3_alg».proof.Proof.Gen.ReferenceIdeal.Read
import proofs.«425378_j26774826123822_3_alg».proof.Proof.Linear

noncomputable section

open scoped BigOperators

namespace Cert.ReferenceIdeal.LinearValue

open Cert.ReferenceIdeal Cert.ReferenceIdeal.Gen Cert.ReferenceIdeal.Read Idealize.ShloMosaic Idealize.ShloMosaic.ValueIdx Cert.DequantLinear

/-- Entry `(t, o)` of the product reads the activations at `(t, k)` … -/
theorem act_idx (i : S4096x12288.Idx) (k : Fin 3072) : lidx_main_v4 i k = ix2 (i 0) k :=
  funext fun a => Fin.ext (by match a with | ⟨0, _⟩ => rfl | ⟨1, _⟩ => rfl)
/-- … and the weights at `(o, k)`. -/
theorem wgt_idx (i : S4096x12288.Idx) (k : Fin 3072) : ridx_main_v4 i k = ix2 (i 1) k :=
  funext fun a => Fin.ext (by match a with | ⟨0, _⟩ => rfl | ⟨1, _⟩ => rfl)
/-- Entry `(t, o)` of the repeated bias is the bias of output feature `o`. -/
theorem bias_idx (i : S4096x12288.Idx) : idx_main_v5 (idx_main_v6 i) = ix1 (i 1) :=
  funext fun a => Fin.ext (by match a with | ⟨0, _⟩ => rfl)

/-- The fourth stage is the dequantized weight matrix. -/
theorem weights_eq (x1 : IVec S12288x96x32 32) (x2 : FVec Ideal S12288x96x1 .f32) :
    val_main_v3 (F := Ideal) x1 x2 = dequant bcast_S12288x96x1_S12288x96x32_0_1_2 shapeCasts_S12288x96x32_S12288x3072 x1 x2 := rfl

/-- THE REFERENCE'S RESULT is the layer of its arguments at the dequantized weights. -/
theorem result_eq (x0 : FVec Ideal S4096x3072 .f32) (x1 : IVec S12288x96x32 32) (x2 : FVec Ideal S12288x96x1 .f32) (x3 : FVec Ideal S12288 .f32) :
    val_main_v7 (F := Ideal) x0 x1 x2 x3
      = linear x0 (dequant bcast_S12288x96x1_S12288x96x32_0_1_2 shapeCasts_S12288x96x32_S12288x3072 x1 x2) x3 := by
  funext i
  rw [val_main_v7_apply, val_main_v4_apply, val_main_v6_apply, val_main_v5_apply, bias_idx, weights_eq]
  simp only [act_idx, wgt_idx]
  rfl

end Cert.ReferenceIdeal.LinearValue

end
-- ==== Proof.lean ====
/- The certificate of a block-quantized linear layer: the tiled kernel against its one-line reference, over the
   extended reals.

   Both programs first build the same weight matrix `W [12288, 3072]` from integer blocks `q [12288, 96, 32]` and one
   scale per block `s [12288, 96, 1]`:  W (o, 32·g + r) = float (q (o, g, r)) · s (o, g, 0).  The reference then takes
   `x · Wᵀ` in one contraction over the 3072 input features and adds the bias to every row. The kernel narrows `x` and
   `W` to bf16 — the identity on extended reals —, cuts the `[4096, 12288]` result into 2 × 48 blocks of
   `[2048, 256]`, and at each grid point multiplies 2048 rows of `x` by 256 rows of `W` over ALL 3072 features into a
   zero accumulator and adds 256 entries of the bias. The contraction is not split, so entry `(t, o)` is on both sides

       (∑ k < 3072, x (t, k) · W (o, k)) + bias o,

   the same sum term by term: no reordering, no distributivity, and so no use of the inputs' finiteness. The blocks
   tile the result, which gives the whole array. The idealization rewrote nothing, so `preserves` is trivial; the
   kernel's two frames are its generated frame certificates and the reference's frame is its run with the value dropped. -/
import proofs.«425378_j26774826123822_3_alg».proof.Defs
import proofs.«425378_j26774826123822_3_alg».proof.Proof.Gen.Kernel
import proofs.«425378_j26774826123822_3_alg».proof.Proof.Gen.Kernel.Skeleton
import proofs.«425378_j26774826123822_3_alg».proof.Proof.Gen.Kernel.Launch
import proofs.«425378_j26774826123822_3_alg».proof.Proof.Gen.Kernel.Points
import proofs.«425378_j26774826123822_3_alg».proof.Proof.Gen.Kernel.Frame
import proofs.«425378_j26774826123822_3_alg».proof.Proof.Gen.KernelIdeal
import proofs.«425378_j26774826123822_3_alg».proof.Proof.Gen.KernelIdeal.Skeleton
import proofs.«425378_j26774826123822_3_alg».proof.Proof.Gen.KernelIdeal.Launch
import proofs.«425378_j26774826123822_3_alg».proof.Proof.Gen.KernelIdeal.Points
import proofs.«425378_j26774826123822_3_alg».proof.Proof.Gen.KernelIdeal.Frame
import proofs.«425378_j26774826123822_3_alg».proof.Proof.Gen.ReferenceIdeal
import proofs.«425378_j26774826123822_3_alg».proof.Proof.Gen.Pre_finite_inputs
import proofs.«425378_j26774826123822_3_alg».proof.Proof.Gen.KernelIdeal.Value
import proofs.«425378_j26774826123822_3_alg».proof.Proof.Gen.ReferenceIdeal.Run
import proofs.«425378_j26774826123822_3_alg».proof.Proof.Gen.ReferenceIdeal.Read
import proofs.«425378_j26774826123822_3_alg».proof.Proof.KernelLinear
import proofs.«425378_j26774826123822_3_alg».proof.Proof.RefLinear
import Idealize.ShloMosaic.Adequacy
import Idealize.ShloMosaic.Init

noncomputable section

namespace Cert.Proof

open Idealize.ShloMosaic Idealize.ShloMosaic.TcCoe Idealize.SL.Sem

/-- From memories agreeing on the four arguments both runs end with the result array at the layer of the kernel's
    arguments at the dequantized weights: the kernel's by its blocks, the reference's stage by stage. -/
theorem algebraic : Cert.algebraic_KernelIdeal_ReferenceIdeal := by
  intro m ρ m' ρ' _ hagree
  refine ⟨fun c => Cert.KernelIdeal.LinearValue.result m c, Cert.KernelIdeal.LinearValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.LinearValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
